-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x512 : Shape := ⟨2, ![4096, 512]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4096x4096 .f32) (main_arg1 : FVec F S4096x512 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x4096 : Shape := ⟨2, ![4096, 4096]⟩
abbrev S4096x512 : Shape := ⟨2, ![4096, 512]⟩
abbrev S512x4096 : Shape := ⟨2, ![512, 4096]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096x512, .f32⟩
  | .hbm, ⟨2, _⟩ => ⟨S4096x512, .f32⟩
  | .local _ .vmem, ⟨0, _⟩ => ⟨S512x4096, .f32⟩
  | .local _ .vmem, ⟨1, _⟩ => ⟨S512x4096, .f32⟩
  | .local _ .vmem, ⟨2, _⟩ => ⟨S4096x512, .f32⟩
  | .local _ .vmem, ⟨3, _⟩ => ⟨S512x512, .f32⟩
  | .local _ .vmem, ⟨4, _⟩ => ⟨S512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x4096_S512x4096_0_0 : ∀ a, (![0, 0] : Fin 2 → Nat) a + S512x4096.size a ≤ S512x4096.size a
  h_S512x4096 : 0 < S512x4096.numel
  iota_S512x4096_d0_w32 : S512x4096.Iotas .tc 32 [0]
  iota_S512x4096_d1_w32 : S512x4096.Iotas .tc 32 [1]
  inb_S4096x512_S4096x512_0_0 : ∀ a, (![0, 0] : Fin 2 → Nat) a + S4096x512.size a ≤ S4096x512.size a
  h_S4096x512 : 0 < S4096x512.numel
  inb_S512x512_S512x512_0_0 : ∀ a, (![0, 0] : Fin 2 → Nat) a + S512x512.size a ≤ S512x512.size a
  h_S512x512 : 0 < S512x512.numel
  dot_S512x4096_S4096x512_S512x512_1_0_0_1_n_n_wf : DotDims.WF S512x4096 S4096x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .f32 = 32 ∨ (Rect.block (s := S4096x512) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x512.size a
  hwx0_2 : ∀ i : grid0.Coords, EltTy.bits .f32 = 32 ∨ (Rect.block (s := S4096x512) S512x512.size (cc0_transform_2 i) (hinb0_2 i)).WholeWords (EltTy.packing .f32)

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x512, .f32⟩
  | .hbm, ⟨2, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let arg2 : BitVec 32 := BitVec.ofNat 32 (i 2).val
  let v3 : BitVec 1 := Scalar.cmpi .ne arg0 arg2
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let arg2 : BitVec 32 := BitVec.ofNat 32 (i 2).val
  let v6 : BitVec 1 := Scalar.cmpi .eq arg0 arg2
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S512x512_S512x512_0_0 : ∀ a, (![0, 0] : Fin 2 → Nat) a + S512x512.size a ≤ S512x512.size a
  h_S512x512 : 0 < S512x512.numel
  shapeCasts_S512x512_S512x512 : S512x512.ShapeCasts S512x512
  iota_S512x512_d0_w32 : S512x512.Iotas .tc 32 [0]
  iota_S512x512_d1_w32 : S512x512.Iotas .tc 32 [1]
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .f32 = 32 ∨ (Rect.block (s := S4096x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x512.size a
  hwx0_2 : ∀ i : grid0.Coords, EltTy.bits .f32 = 32 ∨ (Rect.block (s := S4096x512) S512x512.size (cc0_transform_2 i) (hinb0_2 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) && !(k0_cond3 i == 1#1) | ⟨_ + 3, h⟩ => absurd h (Nat.not_lt.2 (Nat.le_add_left _ _))

class Facts : Prop extends Facts₀ where

variable [Facts]
-- ==== Proof.Hollow.lean ====
/-
  The mathematics both programs compute, stated once over the extended reals: the product of the weight matrix with
  its diagonal replaced by zero, W − diag(diag W), with x.

  Entry (r, q) of the result is the sum over the column c of W of h(r, c) · x(c, q), where h(r, c) is 0 on the
  diagonal (c = r) and W(r, c) off it. No finiteness is assumed anywhere: a masked entry contributes the product
  0 · x(c, q) on both sides, and sums of extended reals may be regrouped freely (addition there is commutative and
  associative).
-/
import Idealize.ShloMosaic.Lib.ValueIdx
import Idealize.ShloMosaic.PureOps.Ideal

noncomputable section

open scoped BigOperators

namespace Cert.Hollow

open Idealize.ShloMosaic Idealize.ShloMosaic.ValueIdx

/-- Entry (r, c) of the weight matrix with its diagonal replaced by zero. -/
def hol (W : (⟨2, ![4096, 4096]⟩ : Shape).Idx → Ideal .f32) (r c : Fin 4096) : Ideal .f32 :=
  if c.val = r.val then 0 else W (ix2 r c)

/-- `(W − diag(diag W)) · x`, entry by entry. -/
def prod (W : (⟨2, ![4096, 4096]⟩ : Shape).Idx → Ideal .f32) (x : (⟨2, ![4096, 512]⟩ : Shape).Idx → Ideal .f32) :
    (⟨2, ![4096, 512]⟩ : Shape).Idx → Ideal .f32 :=
  fun j => ∑ c : Fin 4096, hol W (j 0) c * x (ix2 c (j 1))

end Cert.Hollow

end
-- ==== Proof.LibMatmulPlainAt.lean ====
/-
  A general lemma about the matrix unit's product at the ideal instance, for any extents.

  `tpu.matmul` of an m×k matrix by a k×n matrix (the left operand contracted on its second axis, the right one on its
  first, no batch axis), accumulated into the zero matrix, read at entry (a, b), is the sum over the contracted
  coordinate c of A(a, c) · B(c, b) on the extended reals. The record of dimension numbers is any record with these
  axis lists; its well-formedness is whatever the program states.
-/
import Idealize.ShloMosaic.Lib.ValueIdx
import Idealize.ShloMosaic.PureOps.Ideal.Laws

noncomputable section

open scoped BigOperators

namespace Idealize.ShloMosaic.MatmulPlainAt

open Idealize.ShloMosaic Idealize.ShloMosaic.ValueIdx

variable {m k n : Nat}

/-- The left operand's index at output entry (a, b) and contracted coordinate c is (a, c). -/
theorem lhsIdx_eq (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's index at output entry (a, b) and contracted coordinate c is (c, b). -/
theorem rhsIdx_eq (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- The product into the zero matrix, entry by entry: `(A · B)(a, b) = ∑ c, A(a, c) · B(c, b)`. -/
theorem matmul_zero_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_eq w a b c, rhsIdx_eq w a b c]

end Idealize.ShloMosaic.MatmulPlainAt

end
-- ==== Proof.KernelPayload.lean ====
/-
  The kernel's arithmetic at one grid point, read entry by entry over the extended reals.

  At grid point i the body holds a 512×4096 row stripe x0 of the weight matrix and the whole 4096×512 matrix x1. It
  replaces by zero the stripe's entries whose column is the row's own position in the full matrix — local row p of
  stripe i is row p + 512·i, so the masked column is c = p + 512·i — and multiplies the masked stripe by x1 on the
  matrix unit, accumulating into zeros. Entry (p, q) of what it stores is therefore the sum over c of
  (0 if c = p + 512·i, else x0(p, c)) · x1(c, q).

  The mask is computed on 32-bit words: column index against row index plus i·512. With i < 8, p < 512 and c < 4096
  nothing wraps, so the word comparison is the comparison of the natural numbers.
-/
import proofs.«174706_g2000605606384585_pallaspilot1_262_1_alg».proof.Proof.Gen.KernelIdeal.Skeleton
import proofs.«174706_g2000605606384585_pallaspilot1_262_1_alg».proof.Proof.LibMatmulPlainAt
import Idealize.ShloMosaic.Lib.Pipeline.Value
import Idealize.ShloMosaic.Lib.ValueIdx

noncomputable section

open scoped BigOperators

namespace Cert.KernelIdeal.HollowValue

open Cert.KernelIdeal Cert.KernelIdeal.Gen
open Idealize.ShloMosaic Idealize.ShloMosaic.ValueIdx

/-- A one-bit word made from a truth value is the bit 1 exactly when the value is true. -/
theorem ofBool_one_iff (b : Bool) : BitVec.ofBool b = 1#1 ↔ b = true := by cases b <;> decide

/-- The mask's word comparison is the comparison of numbers: for a stripe number a < 8, a local row p < 512 and a
    column c < 4096, the 32-bit word of c equals the word of p plus the word of a times 512 exactly when
    c = p + 512·a (the right side is below 2¹², far from wrapping). -/
theorem mask_word_iff (a p c : Nat) (ha : a < 8) (hp : p < 512) (hc : c < 4096) :
    IntOp.cmpi .eq (BitVec.ofNat 32 c) (IntOp.addi (BitVec.ofNat 32 p) (Scalar.muli (BitVec.ofNat 32 a) 512#32)) = 1#1
      ↔ c = p + 512 * a := by
  unfold IntOp.cmpi IntOp.addi Scalar.muli IntOp.muli
  rw [ofBool_one_iff, beq_iff_eq]
  constructor
  · intro h
    have h' := congrArg BitVec.toNat h
    simp only [BitVec.toNat_add, BitVec.toNat_mul, BitVec.toNat_ofNat] at h'
    omega
  · intro h
    apply BitVec.eq_of_toNat_eq
    simp only [BitVec.toNat_add, BitVec.toNat_mul, BitVec.toNat_ofNat]
    omega

/-- The masked stripe at entry (p, c): zero on the full matrix's diagonal, the stripe's entry elsewhere. -/
theorem masked_apply (i : grid0.Coords) (x0 : Vec Ideal S512x4096 .f32) (p : Fin 512) (c : Fin 4096) :
    (select (cmpi .eq (iota .tc S512x4096 32 [1] iota_S512x4096_d1_w32)
        (addi (iota .tc S512x4096 32 [0] iota_S512x4096_d0_w32)
          (broadcast S512x4096 (Scalar.muli (BitVec.ofNat 32 (i 0).val) 512#32))))
      (broadcast S512x4096 (Scalar.ofBits (F := Ideal) .f32 0x00000000#32)) x0 : FVec Ideal S512x4096 .f32) (ix2 p c)
      = if c.val = p.val + 512 * (i 0).val then 0 else x0 (ix2 p c) := by
  have hi : (i 0).val < 8 := (i 0).isLt
  rw [select_apply, broadcast_apply]
  show Scalar.select (IntOp.cmpi .eq (iota .tc S512x4096 32 [1] iota_S512x4096_d1_w32 (ix2 p c))
      (IntOp.addi (iota .tc S512x4096 32 [0] iota_S512x4096_d0_w32 (ix2 p c)) (Scalar.muli (BitVec.ofNat 32 (i 0).val) 512#32)))
      (Ideal.ofBits .f32 0x00000000#32) (x0 (ix2 p c)) = _
  rw [iota_single_apply, iota_single_apply, Ideal.ofBits_zero_f32]
  show (if IntOp.cmpi .eq (BitVec.ofNat 32 c.val) (IntOp.addi (BitVec.ofNat 32 p.val) (Scalar.muli (BitVec.ofNat 32 (i 0).val) 512#32)) = 1 then (0 : EReal) else x0 (ix2 p c)) = _
  exact if_congr (mask_word_iff (i 0).val p.val c.val hi p.isLt c.isLt) rfl rfl

/-- WHAT THE BODY STORES at grid point i, entry (p, q): the masked stripe's row p against column q of x1. -/
theorem pay_apply (i : grid0.Coords) (x0 : Vec Ideal S512x4096 .f32) (x1 : Vec Ideal S4096x512 .f32) (p q : Fin 512) :
    k0_pay1 (F := Ideal) i x0 x1 (ix2 p q)
      = ∑ c : Fin 4096, (if c.val = p.val + 512 * (i 0).val then 0 else x0 (ix2 p c)) * x1 (ix2 c q) := by
  unfold k0_pay1 dot_S512x4096_S4096x512_S512x512_1_0_0_1_n_n
  refine (Idealize.ShloMosaic.MatmulPlainAt.matmul_zero_apply _ none _ x1 p q).trans ?_
  refine Finset.sum_congr rfl fun c _ => ?_
  rw [masked_apply i x0 p c]

end Cert.KernelIdeal.HollowValue

end
-- ==== Proof.KernelValue.lean ====
/-
  The kernel's result array after the run is (W − diag(diag W)) · x of its two argument arrays.

  The grid has eight points; point t stages rows 512·t … 512·t + 511 of W (all 4096 columns) and all of x, and writes
  back rows 512·t … 512·t + 511 of the result (all 512 columns). What it writes at local entry (p, q) is the sum over
  the column c of (0 if c = p + 512·t, else the stripe's (p, c)) · x(c, q); the stripe's (p, c) is W(512·t + p, c), and
  c = p + 512·t says that c is the row's own number, so this is entry (512·t + p, q) of the product with W's diagonal
  replaced by zero. Every row r of the result lies in the block of point r / 512, and every point writes its block back,
  so the whole array ends holding the product.
-/
import proofs.«174706_g2000605606384585_pallaspilot1_262_1_alg».proof.Proof.KernelIdealValueP
import proofs.«174706_g2000605606384585_pallaspilot1_262_1_alg».proof.Proof.KernelPayload
import proofs.«174706_g2000605606384585_pallaspilot1_262_1_alg».proof.Proof.Hollow
import Idealize.ShloMosaic.Lib.Pipeline.Value
import Idealize.ShloMosaic.Lib.ValueIdx

noncomputable section

open scoped BigOperators

namespace Cert.KernelIdeal.HollowValue

open Cert.KernelIdeal Cert.KernelIdeal.Gen Cert.KernelIdeal.GenP Cert.KernelIdeal.ValueP
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The zero offsets of a whole-buffer access, however they are spelt. -/
theorem zero_offsets : (![0, 0] : Fin 2 → Nat) = fun _ => 0 := funext fun a => by fin_cases a <;> rfl

/-- The block indices of the three windows and the grid coordinate, at every point: the stripe of W and the block of
    the result are block row t, the x window is the whole array, and the grid's one coordinate is the point's number. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ (grid0.coords t 0).val = t.val :=
  (by decide +kernel : ∀ t : Fin grid0.N, _)

/-- Entry (p, k) of the stripe staged at point t is W(512·t + p, k). -/
theorem stripe_apply (c : Dev nD) (t : Fin cfg0.N) (p : Fin 512) (k r : Fin 4096) (hr : r.val = 512 * t.val + p.val) :
    (iblk m c 0 t : Vec Ideal S512x4096 .f32) (ix2 p k)
      = (m ((c : Thread nD τ).loc main_arg0) : S4096x4096.Idx → Ideal .f32) (ix2 r k) := by
  obtain ⟨e0, e1, -⟩ := index_facts t
  unfold iblk
  rw [View.read_apply]
  show V m c main_arg0 _ = m ((c : Thread nD τ).loc main_arg0) _
  unfold V
  congr 1
  funext a
  apply Fin.ext
  match a with
  | ⟨0, _⟩ => show win0_0.index t (0 : Fin 2) * 512 + 1 * p.val = r.val; rw [e0, hr]; omega
  | ⟨1, _⟩ => show win0_0.index t (1 : Fin 2) * 4096 + 1 * k.val = k.val; rw [e1]; omega

/-- The x window staged at any point is x itself. -/
theorem xwhole_apply (c : Dev nD) (t : Fin cfg0.N) (k : Fin 4096) (q : Fin 512) :
    (iblk m c 1 t : Vec Ideal S4096x512 .f32) (ix2 k q)
      = (m ((c : Thread nD τ).loc main_arg1) : S4096x512.Idx → Ideal .f32) (ix2 k q) := by
  obtain ⟨-, -, e2, e3, -⟩ := index_facts t
  unfold iblk
  rw [View.read_apply]
  show V m c main_arg1 _ = m ((c : Thread nD τ).loc main_arg1) _
  unfold V
  congr 1
  funext a
  apply Fin.ext
  match a with
  | ⟨0, _⟩ => show win0_1.index t (0 : Fin 2) * 4096 + 1 * k.val = k.val; rw [e2]; omega
  | ⟨1, _⟩ => show win0_1.index t (1 : Fin 2) * 512 + 1 * q.val = q.val; rw [e3]; omega

/-- The body's stored entry y at the grid coordinate tv, over a stripe x0 that is rows 512·tv … of W and an x1 that is
    X, is entry z of the hollow product whenever z is y moved down by 512·tv rows. -/
theorem pay_eq_prod (i : grid0.Coords) (x0 : Vec Ideal S512x4096 .f32) (x1 : Vec Ideal S4096x512 .f32)
    (W : S4096x4096.Idx → Ideal .f32) (X : S4096x512.Idx → Ideal .f32) (tv : Nat) (hi : (i 0).val = tv)
    (h0 : ∀ (p : Fin 512) (k r : Fin 4096), r.val = 512 * tv + p.val → x0 (ix2 p k) = W (ix2 r k))
    (h1 : ∀ (k : Fin 4096) (q : Fin 512), x1 (ix2 k q) = X (ix2 k q))
    (p q : Fin 512) (r : Fin 4096) (hr : r.val = 512 * tv + p.val) :
    k0_pay1 (F := Ideal) i x0 x1 (ix2 p q) = Cert.Hollow.prod W X (ix2 r q) := by
  rw [pay_apply]
  show _ = ∑ k : Fin 4096, Cert.Hollow.hol W r k * X (ix2 k q)
  refine Finset.sum_congr rfl fun k _ => ?_
  rw [h1 k q]
  congr 1
  unfold Cert.Hollow.hol
  exact if_congr (by rw [hi, hr]; omega) rfl (h0 p k r hr)

/-- The same at any entry y of the stored block and any entry z of the array with z = y moved down by 512·tv rows. -/
theorem pay_eq_prod_at (i : grid0.Coords) (x0 : Vec Ideal S512x4096 .f32) (x1 : Vec Ideal S4096x512 .f32)
    (W : S4096x4096.Idx → Ideal .f32) (X : S4096x512.Idx → Ideal .f32) (tv : Nat) (hi : (i 0).val = tv)
    (h0 : ∀ (p : Fin 512) (k r : Fin 4096), r.val = 512 * tv + p.val → x0 (ix2 p k) = W (ix2 r k))
    (h1 : ∀ (k : Fin 4096) (q : Fin 512), x1 (ix2 k q) = X (ix2 k q))
    (y : S512x512.Idx) (z : S4096x512.Idx) (hz0 : (z 0).val = 512 * tv + (y 0).val) (hz1 : (z 1).val = (y 1).val) :
    k0_pay1 (F := Ideal) i x0 x1 y = Cert.Hollow.prod W X z := by
  have hz : z = ix2 (z 0) (y 1) := funext fun a => by
    match a with
    | ⟨0, _⟩ => rfl
    | ⟨1, _⟩ => exact Fin.ext hz1
  exact (congrArg (k0_pay1 (F := Ideal) i x0 x1) (eq_ix2 y)).trans
    ((pay_eq_prod i x0 x1 W X tv hi h0 h1 (y 0) (y 1) (z 0) hz0).trans (congrArg (Cert.Hollow.prod W X) hz.symm))

/-- WHAT POINT t WRITES BACK is block t of the hollow product of the argument arrays. -/
theorem flushed_eq (c : Dev nD) (t : Fin cfg0.N) :
    (dats m 0 c).flushed 2 t = ((cfg0.win 2).blk t).view.read (Elt Ideal)
      (Cert.Hollow.prod (m ((c : Thread nD τ).loc main_arg0)) (m ((c : Thread nD τ).loc main_arg1))) := by
  rw [flushed2]
  unfold out0_2
  rw [View.canon_unit_zero zero_offsets]
  simp only [View.ld_unit_zero (S := S512x4096) zero_offsets, View.ld_unit_zero (S := S4096x512) zero_offsets]
  obtain ⟨-, -, -, -, e4, e5, e6⟩ := index_facts t
  funext j
  rw [View.read_apply]
  show k0_pay1 (F := Ideal) (grid0.coords t) (iblk m c 0 t) (iblk m c 1 t) ((cfg0.win 2).xinj (grid0.coords t) j)
    = Cert.Hollow.prod (m ((c : Thread nD τ).loc main_arg0)) (m ((c : Thread nD τ).loc main_arg1)) (((cfg0.win 2).blk t).view.emb j)
  refine pay_eq_prod_at (grid0.coords t) (iblk m c 0 t) (iblk m c 1 t)
    (m ((c : Thread nD τ).loc main_arg0)) (m ((c : Thread nD τ).loc main_arg1)) t.val e6
    (stripe_apply m c t) (xwhole_apply m c t) ((cfg0.win 2).xinj (grid0.coords t) j) (((cfg0.win 2).blk t).view.emb j) ?_ ?_
  · show win0_2.index t (0 : Fin 2) * 512 + 1 * (j 0).val = 512 * t.val + (j 0).val
    rw [e4]; omega
  · show win0_2.index t (1 : Fin 2) * 512 + 1 * (j 1).val = (j 1).val
    rw [e5]; omega

/-- An entry of the result array is in point t's block exactly when each coordinate is in the block's range. -/
theorem mem_block (t : Fin cfg0.N) (i : S4096x512.Idx) :
    i ∈ ((cfg0.win 2).blk t).view.set ↔ ∀ a : Fin 2, win0_2.index t a * S512x512.size a ≤ (i a).val
      ∧ (i a).val < win0_2.index t a * S512x512.size a + S512x512.size a := by
  show i ∈ ((View.whole main_v0).slice (win0_2.rect t)).set ↔ _
  rw [View.set_slice_whole, Rect.mem_set_unit]
  exact Iff.rfl

/-- Every entry of the result array is written back by some point: row r by point r / 512. -/
theorem covered (i : S4096x512.Idx) :
    ∃ t : Fin cfg0.N, (cfg0.win 2).flush t = true ∧ i ∈ ((cfg0.win 2).blk t).view.set := by
  have hi0 : (i 0).val < 4096 := (i 0).isLt
  have hi1 : (i 1).val < 512 := (i 1).isLt
  have hN : cfg0.N = 8 := N_0
  have ht : (i 0).val / 512 < cfg0.N := by rw [hN]; omega
  obtain ⟨-, -, -, -, e4, e5, -⟩ := index_facts ⟨(i 0).val / 512, ht⟩
  refine ⟨⟨(i 0).val / 512, ht⟩, flush0_2 _, ?_⟩
  rw [mem_block]
  intro a
  match a with
  | ⟨0, _⟩ =>
    show win0_2.index ⟨(i 0).val / 512, ht⟩ (0 : Fin 2) * 512 ≤ (i 0).val
      ∧ (i 0).val < win0_2.index ⟨(i 0).val / 512, ht⟩ (0 : Fin 2) * 512 + 512
    rw [e4]; show (i 0).val / 512 * 512 ≤ (i 0).val ∧ (i 0).val < (i 0).val / 512 * 512 + 512; omega
  | ⟨1, _⟩ =>
    show win0_2.index ⟨(i 0).val / 512, ht⟩ (1 : Fin 2) * 512 ≤ (i 1).val
      ∧ (i 1).val < win0_2.index ⟨(i 0).val / 512, ht⟩ (1 : Fin 2) * 512 + 512
    rw [e5]; omega

/-- THE RESULT ARRAY after the run is the hollow product of the argument arrays. -/
theorem final (c : Dev nD) : (dats m 0 c).arrAt 2 cfg0.N
    = Cert.Hollow.prod (m ((c : Thread nD τ).loc main_arg0)) (m ((c : Thread nD τ).loc main_arg1)) :=
  (dats m 0 c).arrAt_eq_of_cover 2
    (Cert.Hollow.prod (m ((c : Thread nD τ).loc main_arg0)) (m ((c : Thread nD τ).loc main_arg1)))
    (fun t _ => flushed_eq m c t) covered

/-- THE KERNEL'S RUN, READ: the result array at the hollow product of the arguments, the arguments unchanged. -/
theorem run : θ_run (defs (F := Ideal)) (onTc (τ := τ) (main (F := Ideal))) ⟨m, fun _ => 0, ρ⟩ fun r => ∀ c : Dev nD,
      r.2.mem ((c : Thread nD τ).loc main_v0) = Cert.Hollow.prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.HollowValue

end
-- ==== Proof.RefData.lean ====
/-
  The reference's tiled product, point by point: what its 512×512 output block holds after each grid point.

  The grid is 8 × 1 × 8; point t has row tile i = t / 8 and reduction tile k = t % 8. At k = 0 the body first stores
  the zero block; then it adds to the block the product of the (i, k) tile of W — with its own diagonal zeroed exactly
  when i = k — and the k-th row tile of x. The output block's index is (i, 0): it does not move along k, so the block
  is carried from point to point and written back after k = 7.
-/
import proofs.«174706_g2000605606384585_pallaspilot1_262_1_alg».proof.Proof.Gen.ReferenceIdeal.Frame
import proofs.«174706_g2000605606384585_pallaspilot1_262_1_alg».proof.Proof.Gen.ReferenceIdeal.Skeleton

noncomputable section

namespace Cert.ReferenceIdeal.Acc

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]
variable (m : (ℓ : Loc nD τ sig) → Buf (Elt F) ℓ) (ρ : Dev nD → PrngReg)

/-! ## The three branch conditions over the grid, in closed form -/

/-- The reset branch is taken exactly at the points with reduction tile 0. -/
theorem cond1_iff : ∀ t : Fin cfg0.N, k0_cond1 (grid0.coords t) = 1#1 ↔ t.val % 8 = 0 :=
  (by decide +kernel : ∀ t : Fin grid0.N, k0_cond1 (grid0.coords t) = 1#1 ↔ t.val % 8 = 0)
/-- The plain-product branch is taken exactly off the diagonal tiles. -/
theorem cond2_iff : ∀ t : Fin cfg0.N, k0_cond2 (grid0.coords t) = 1#1 ↔ t.val / 8 ≠ t.val % 8 :=
  (by decide +kernel : ∀ t : Fin grid0.N, k0_cond2 (grid0.coords t) = 1#1 ↔ t.val / 8 ≠ t.val % 8)
/-- The masked-product branch is taken exactly on the diagonal tiles. -/
theorem cond3_iff : ∀ t : Fin cfg0.N, k0_cond3 (grid0.coords t) = 1#1 ↔ t.val / 8 = t.val % 8 :=
  (by decide +kernel : ∀ t : Fin grid0.N, k0_cond3 (grid0.coords t) = 1#1 ↔ t.val / 8 = t.val % 8)

/-- Each window's block index at point t: W's tile (t / 8, t % 8), x's row tile (t % 8, 0), the output's (t / 8, 0). -/
theorem idx_w : ∀ t : Fin cfg0.N, win0_0.index t (0 : Fin 2) = t.val / 8 ∧ win0_0.index t (1 : Fin 2) = t.val % 8 :=
  (by decide +kernel : ∀ t : Fin grid0.N, win0_0.index t (0 : Fin 2) = t.val / 8 ∧ win0_0.index t (1 : Fin 2) = t.val % 8)
theorem idx_x : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
theorem idx_o : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- The output window is idle at no grid coordinates: of the two product branches exactly one is taken. -/
theorem live_o : ∀ t : Fin cfg0.N, cfg0.idle 2 (grid0.coords t) = false :=
  (by decide +kernel : ∀ t : Fin grid0.N, idle0 2 (grid0.coords t) = false)

/-! ## What the body leaves in the output block -/

/-- One point's work on the output block: from what the block held (`prev`), the W tile `w` and the x tile `x` at
    coordinates `i`. The block is first reset to zero if the reduction tile is 0; then the tile product is added, W's
    tile masked on its diagonal when the tile is a diagonal one. -/
def step (i : grid0.Coords) (prev w x : Vec F S512x512 .f32) : Vec F S512x512 .f32 :=
  if k0_cond3 i = 1#1 then k0_pay3 w (if k0_cond1 i = 1#1 then k0_pay1 else prev) x
  else k0_pay2 (if k0_cond1 i = 1#1 then k0_pay1 else prev) w x

/-- The output block after point `n`, by recursion on the point (the value before the first point is never used:
    the first point resets). -/
def outsAt (c : Dev nD) : (n : ℕ) → n < cfg0.N → Vec F S512x512 .f32
  | 0, hn => step (grid0.coords ⟨0, hn⟩) k0_pay1 (iblk m c 0 ⟨0, hn⟩) (iblk m c 1 ⟨0, hn⟩)
  | n + 1, hn => step (grid0.coords ⟨n + 1, hn⟩) (outsAt c n (Nat.lt_of_succ_lt hn)) (iblk m c 0 ⟨n + 1, hn⟩) (iblk m c 1 ⟨n + 1, hn⟩)

theorem outsAt_zero (c : Dev nD) (hn : 0 < cfg0.N) :
    outsAt m c 0 hn = step (grid0.coords ⟨0, hn⟩) k0_pay1 (iblk m c 0 ⟨0, hn⟩) (iblk m c 1 ⟨0, hn⟩) := rfl
theorem outsAt_succ (c : Dev nD) (n : ℕ) (hn : n + 1 < cfg0.N) :
    outsAt m c (n + 1) hn = step (grid0.coords ⟨n + 1, hn⟩) (outsAt m c n (Nat.lt_of_succ_lt hn)) (iblk m c 0 ⟨n + 1, hn⟩) (iblk m c 1 ⟨n + 1, hn⟩) := rfl

/-! ## The pipeline's proof data -/

/-- The arrays as the region finds them; after the body at point `t` each input's buffer at its block and the
    output's at `outsAt`; the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outsAt m c t.val t.isLt := by dsimp only [dats]

end Cert.ReferenceIdeal.Acc

end
-- ==== Proof.RefKernelRun.lean ====
/-
  The reference's kernel body, run once: on whole staging buffers holding the W tile, the x tile and whatever the
  output block held, the body ends with the inputs as they were and the output block at `step` of them — zero first
  when the reduction tile is 0, then the tile product added, masked on the tile's diagonal when the tile is diagonal.

  The body is three conditionals on the coordinates, so it is run once per control case: with or without the reset,
  and with the plain or the masked product (exactly one of the two is taken). In each case the output block's buffer
  ends under one covering store of the whole block, so it holds that store's payload; the payload's operands are
  what the loads before it read — the input tiles as they are, and the output block either as it was or, after a
  reset, the zero block the reset's own covering store left.
-/
import proofs.«174706_g2000605606384585_pallaspilot1_262_1_alg».proof.Proof.RefData
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.ReferenceIdeal.Acc

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At a point that resets, what the block held before does not matter. -/
theorem step_of_reset (i : grid0.Coords) (h1 : k0_cond1 i = 1#1) (p p' w x : Vec F S512x512 .f32) :
    step i p w x = step i p' w x := by
  unfold step; rw [if_pos h1, if_pos h1]

/-- The body's accesses all start at the block's origin. -/
private theorem origin_eq : (![0, 0] : Fin 2 → Nat) = fun _ => 0 := funext fun a => by fin_cases a <;> rfl

/-! ## The four control cases -/

set_option maxHeartbeats 1000000 in
/-- No reset, an off-diagonal tile: the block ends at what it held plus the plain tile product. -/
theorem sound_kernel_plain (c : Dev nD) (E : Set ℕ) (i : grid0.Coords)
    (h1 : ¬ k0_cond1 i = 1#1) (h2 : k0_cond2 i = 1#1) (h3 : ¬ k0_cond3 i = 1#1)
    (arg3 : Memref sig .tc .vmem S512x512 .f32) (harg3 : arg3.IsWhole) (arg4 : Memref sig .tc .vmem S512x512 .f32) (harg4 : arg4.IsWhole)
    (arg5 : Memref sig .tc .vmem S512x512 .f32) (harg5 : arg5.IsWhole)
    (x0 x1 prev : Vec F S512x512 .f32) (K : PUnit → sProp 𝕄) :
    iprop(owns (c : Thread nD τ) arg3 fullShare x0 ∗ owns (c : Thread nD τ) arg4 fullShare x1 ∗ owns (c : Thread nD τ) arg5 fullShare prev
        ∗ (iprop(owns (c : Thread nD τ) arg3 fullShare x0 ∗ owns (c : Thread nD τ) arg4 fullShare x1 ∗ owns (c : Thread nD τ) arg5 fullShare (k0_pay2 prev x0 x1)) -∗ K ⟨⟩))
      ⊢ wp frame (wpE (defs₀ (F := F)) Variants.none c none) E (cc0__selfexpr_tiled_kernel i arg3 harg3 arg4 harg4 arg5 harg5) K := by
  simp only [cc0__selfexpr_tiled_kernel_eq_skeleton]; unfold cc0__selfexpr_tiled_kernel_skel
  unfold owns
  iintro ⟨⟨%f0, %hf0, H0⟩, ⟨%f1, %hf1, H1⟩, ⟨%f2, %hf2, H2⟩, Hk⟩
  subst hf0 hf1 hf2
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- one covering store: the block holds its payload, whose loads read the whole buffers
  rw [View.read_writes_eq_canon _ _ _ (fun y => ⟨_, List.mem_singleton_self _, View.mem_set_unit_zero origin_eq inb_S512x512_S512x512_0_0 y⟩),
    View.canon_unit_zero origin_eq]
  simp only [View.readAt_eq_ld, View.ld_unit_zero (S := S512x512) origin_eq]

set_option maxHeartbeats 1000000 in
/-- A reset, an off-diagonal tile: the block ends at the zero block plus the plain tile product. -/
theorem sound_kernel_reset_plain (c : Dev nD) (E : Set ℕ) (i : grid0.Coords)
    (h1 : k0_cond1 i = 1#1) (h2 : k0_cond2 i = 1#1) (h3 : ¬ k0_cond3 i = 1#1)
    (arg3 : Memref sig .tc .vmem S512x512 .f32) (harg3 : arg3.IsWhole) (arg4 : Memref sig .tc .vmem S512x512 .f32) (harg4 : arg4.IsWhole)
    (arg5 : Memref sig .tc .vmem S512x512 .f32) (harg5 : arg5.IsWhole)
    (x0 x1 prev : Vec F S512x512 .f32) (K : PUnit → sProp 𝕄) :
    iprop(owns (c : Thread nD τ) arg3 fullShare x0 ∗ owns (c : Thread nD τ) arg4 fullShare x1 ∗ owns (c : Thread nD τ) arg5 fullShare prev
        ∗ (iprop(owns (c : Thread nD τ) arg3 fullShare x0 ∗ owns (c : Thread nD τ) arg4 fullShare x1 ∗ owns (c : Thread nD τ) arg5 fullShare (k0_pay2 k0_pay1 x0 x1)) -∗ K ⟨⟩))
      ⊢ wp frame (wpE (defs₀ (F := F)) Variants.none c none) E (cc0__selfexpr_tiled_kernel i arg3 harg3 arg4 harg4 arg5 harg5) K := by
  simp only [cc0__selfexpr_tiled_kernel_eq_skeleton]; unfold cc0__selfexpr_tiled_kernel_skel
  unfold owns
  iintro ⟨⟨%f0, %hf0, H0⟩, ⟨%f1, %hf1, H1⟩, ⟨%f2, %hf2, H2⟩, Hk⟩
  subst hf0 hf1 hf2
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- two covering stores: the block holds the later one's payload, which read the block back after the earlier one
  rw [View.read_writes_eq_canon _ _ _ (fun y => ⟨_, List.mem_cons_self, View.mem_set_unit_zero origin_eq inb_S512x512_S512x512_0_0 y⟩),
    View.canon_cons_unit_zero (S := S512x512) origin_eq]
  sl_unfold_words
  rw [View.readCov_unit_zero (S := S512x512) _ origin_eq]
  simp only [View.readAt_eq_ld, View.ld_unit_zero (S := S512x512) origin_eq]

set_option maxHeartbeats 1000000 in
/-- No reset, a diagonal tile: the block ends at what it held plus the product of the tile masked on its diagonal. -/
theorem sound_kernel_diag (c : Dev nD) (E : Set ℕ) (i : grid0.Coords)
    (h1 : ¬ k0_cond1 i = 1#1) (h2 : ¬ k0_cond2 i = 1#1) (h3 : k0_cond3 i = 1#1)
    (arg3 : Memref sig .tc .vmem S512x512 .f32) (harg3 : arg3.IsWhole) (arg4 : Memref sig .tc .vmem S512x512 .f32) (harg4 : arg4.IsWhole)
    (arg5 : Memref sig .tc .vmem S512x512 .f32) (harg5 : arg5.IsWhole)
    (x0 x1 prev : Vec F S512x512 .f32) (K : PUnit → sProp 𝕄) :
    iprop(owns (c : Thread nD τ) arg3 fullShare x0 ∗ owns (c : Thread nD τ) arg4 fullShare x1 ∗ owns (c : Thread nD τ) arg5 fullShare prev
        ∗ (iprop(owns (c : Thread nD τ) arg3 fullShare x0 ∗ owns (c : Thread nD τ) arg4 fullShare x1 ∗ owns (c : Thread nD τ) arg5 fullShare (k0_pay3 x0 prev x1)) -∗ K ⟨⟩))
      ⊢ wp frame (wpE (defs₀ (F := F)) Variants.none c none) E (cc0__selfexpr_tiled_kernel i arg3 harg3 arg4 harg4 arg5 harg5) K := by
  simp only [cc0__selfexpr_tiled_kernel_eq_skeleton]; unfold cc0__selfexpr_tiled_kernel_skel
  unfold owns
  iintro ⟨⟨%f0, %hf0, H0⟩, ⟨%f1, %hf1, H1⟩, ⟨%f2, %hf2, H2⟩, Hk⟩
  subst hf0 hf1 hf2
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- one covering store: the block holds its payload, whose loads read the whole buffers
  rw [View.read_writes_eq_canon _ _ _ (fun y => ⟨_, List.mem_singleton_self _, View.mem_set_unit_zero origin_eq inb_S512x512_S512x512_0_0 y⟩),
    View.canon_unit_zero origin_eq]
  simp only [View.readAt_eq_ld, View.ld_unit_zero (S := S512x512) origin_eq]

set_option maxHeartbeats 1000000 in
/-- A reset, a diagonal tile: the block ends at the zero block plus the product of the tile masked on its diagonal. -/
theorem sound_kernel_reset_diag (c : Dev nD) (E : Set ℕ) (i : grid0.Coords)
    (h1 : k0_cond1 i = 1#1) (h2 : ¬ k0_cond2 i = 1#1) (h3 : k0_cond3 i = 1#1)
    (arg3 : Memref sig .tc .vmem S512x512 .f32) (harg3 : arg3.IsWhole) (arg4 : Memref sig .tc .vmem S512x512 .f32) (harg4 : arg4.IsWhole)
    (arg5 : Memref sig .tc .vmem S512x512 .f32) (harg5 : arg5.IsWhole)
    (x0 x1 prev : Vec F S512x512 .f32) (K : PUnit → sProp 𝕄) :
    iprop(owns (c : Thread nD τ) arg3 fullShare x0 ∗ owns (c : Thread nD τ) arg4 fullShare x1 ∗ owns (c : Thread nD τ) arg5 fullShare prev
        ∗ (iprop(owns (c : Thread nD τ) arg3 fullShare x0 ∗ owns (c : Thread nD τ) arg4 fullShare x1 ∗ owns (c : Thread nD τ) arg5 fullShare (k0_pay3 x0 k0_pay1 x1)) -∗ K ⟨⟩))
      ⊢ wp frame (wpE (defs₀ (F := F)) Variants.none c none) E (cc0__selfexpr_tiled_kernel i arg3 harg3 arg4 harg4 arg5 harg5) K := by
  simp only [cc0__selfexpr_tiled_kernel_eq_skeleton]; unfold cc0__selfexpr_tiled_kernel_skel
  unfold owns
  iintro ⟨⟨%f0, %hf0, H0⟩, ⟨%f1, %hf1, H1⟩, ⟨%f2, %hf2, H2⟩, Hk⟩
  subst hf0 hf1 hf2
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- two covering stores: the block holds the later one's payload, which read the block back after the earlier one
  rw [View.read_writes_eq_canon _ _ _ (fun y => ⟨_, List.mem_cons_self, View.mem_set_unit_zero origin_eq inb_S512x512_S512x512_0_0 y⟩),
    View.canon_cons_unit_zero (S := S512x512) origin_eq]
  sl_unfold_words
  rw [View.readCov_unit_zero (S := S512x512) _ origin_eq]
  simp only [View.readAt_eq_ld, View.ld_unit_zero (S := S512x512) origin_eq]

/-! ## The body's triple -/

/-- The body's triple, at any coordinates at which exactly one of the two product branches is taken. -/
theorem sound_kernel (c : Dev nD) (E : Set ℕ) (i : grid0.Coords)
    (h23 : k0_cond2 i = 1#1 ↔ ¬ k0_cond3 i = 1#1)
    (arg3 : Memref sig .tc .vmem S512x512 .f32) (harg3 : arg3.IsWhole) (arg4 : Memref sig .tc .vmem S512x512 .f32) (harg4 : arg4.IsWhole)
    (arg5 : Memref sig .tc .vmem S512x512 .f32) (harg5 : arg5.IsWhole)
    (x0 x1 prev : Vec F S512x512 .f32) (K : PUnit → sProp 𝕄) :
    iprop(owns (c : Thread nD τ) arg3 fullShare x0 ∗ owns (c : Thread nD τ) arg4 fullShare x1 ∗ owns (c : Thread nD τ) arg5 fullShare prev
        ∗ (iprop(owns (c : Thread nD τ) arg3 fullShare x0 ∗ owns (c : Thread nD τ) arg4 fullShare x1 ∗ owns (c : Thread nD τ) arg5 fullShare (step i prev x0 x1)) -∗ K ⟨⟩))
      ⊢ wp frame (wpE (defs₀ (F := F)) Variants.none c none) E (cc0__selfexpr_tiled_kernel i arg3 harg3 arg4 harg4 arg5 harg5) K := by
  by_cases h1 : k0_cond1 i = 1#1 <;> by_cases h3 : k0_cond3 i = 1#1
  · have h2 : ¬ k0_cond2 i = 1#1 := fun h => h23.mp h h3
    rw [show step i prev x0 x1 = k0_pay3 x0 k0_pay1 x1 from by unfold step; rw [if_pos h3, if_pos h1]]
    exact sound_kernel_reset_diag c E i h1 h2 h3 arg3 harg3 arg4 harg4 arg5 harg5 x0 x1 prev K
  · have h2 : k0_cond2 i = 1#1 := h23.mpr h3
    rw [show step i prev x0 x1 = k0_pay2 k0_pay1 x0 x1 from by unfold step; rw [if_neg h3, if_pos h1]]
    exact sound_kernel_reset_plain c E i h1 h2 h3 arg3 harg3 arg4 harg4 arg5 harg5 x0 x1 prev K
  · have h2 : ¬ k0_cond2 i = 1#1 := fun h => h23.mp h h3
    rw [show step i prev x0 x1 = k0_pay3 x0 prev x1 from by unfold step; rw [if_pos h3, if_neg h1]]
    exact sound_kernel_diag c E i h1 h2 h3 arg3 harg3 arg4 harg4 arg5 harg5 x0 x1 prev K
  · have h2 : k0_cond2 i = 1#1 := h23.mpr h3
    rw [show step i prev x0 x1 = k0_pay2 prev x0 x1 from by unfold step; rw [if_neg h3, if_neg h1]]
    exact sound_kernel_plain c E i h1 h2 h3 arg3 harg3 arg4 harg4 arg5 harg5 x0 x1 prev K

end Cert.ReferenceIdeal.Acc

end
-- ==== Proof.RefBody.lean ====
/-
  The reference's run, from its body's triple: what the output block's staging buffer holds when the body is entered
  at each grid point, the body obligation at every point, the run of @main to the frame post, and the frame.

  The output block's index (t / 8, 0) does not move along the reduction tile k = t % 8, and the block is written back
  only after k = 7. So at a point with k ≠ 0 the buffer still holds what the point before left — the partial sum over
  the tiles 0 … k − 1 — and at a point with k = 0 it holds anything, which does not matter: there the body first
  stores zeros.
-/
import proofs.«174706_g2000605606384585_pallaspilot1_262_1_alg».proof.Proof.RefKernelRun

set_option maxRecDepth 16384

noncomputable section

namespace Cert.ReferenceIdeal.Acc

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two product branches, at all coordinates -/

/-- The plain-product branch tests i ≠ k and the masked-product branch tests i = k, on the same two words: at any
    coordinates one of the two is taken. -/
theorem cond2_or_cond3 (i : grid0.Coords) : k0_cond2 i = 1#1 ∨ k0_cond3 i = 1#1 := by
  unfold k0_cond2 k0_cond3
  dsimp only
  generalize BitVec.ofNat 32 (i 0).val = a
  generalize BitVec.ofNat 32 (i 2).val = b
  unfold Scalar.cmpi Scalar.extui IntOp.cmpi
  dsimp only
  by_cases hab : a = b
  · right; rw [beq_iff_eq.mpr hab]; decide
  · left; rw [bne_iff_ne.mpr hab]; decide

/-- So the output window is idle at no coordinates of the grid. -/
theorem live_all : ∀ i : cfg0.grid.Coords, cfg0.idle 2 i = false := by
  intro i
  show (!(k0_cond1 i == 1#1) && !(k0_cond2 i == 1#1) && !(k0_cond3 i == 1#1)) = false
  rcases cond2_or_cond3 i with h | h <;> simp [h]

/-! ## What the staging buffers hold when the body is entered -/

/-- Each input's current staging buffer holds its tile at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point whose reduction tile is not 0 the output block's buffer holds what the body left at the point before:
    the point is not the first, the block was not written back in between (that happens only after reduction tile 7),
    and the window is live and uncut. -/
theorem before0_2 (c : Dev nD) (t : Fin cfg0.N) (h0 : ¬t.val % 8 = 0) (d) :
    (dats m 0 c).before 2 t d = outsAt m c (t.val - 1) (Nat.lt_of_le_of_lt (Nat.sub_le _ _) t.isLt) := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    live_all (fun _ _ => rfl)]
  dsimp only [dats]

/-- The body's step from whatever the output block's buffer holds on entry is the recursion's value: at reduction
    tile 0 the body resets, so the entry contents do not matter; elsewhere they are the point before's value. -/
theorem step_before (c : Dev nD) (t : Fin cfg0.N) (d) :
    step (grid0.coords t) ((dats m 0 c).before 2 t d) (iblk m c 0 t) (iblk m c 1 t) = outsAt m c t.val t.isLt := by
  obtain ⟨n, hn⟩ := t
  cases n with
  | zero =>
    exact (step_of_reset (grid0.coords ⟨0, hn⟩) ((cond1_iff ⟨0, hn⟩).mpr (Nat.zero_mod _)) _ k0_pay1 _ _).trans (outsAt_zero m c hn).symm
  | succ n =>
    refine Eq.trans ?_ (outsAt_succ m c n hn).symm
    by_cases h0 : (n + 1) % 8 = 0
    · exact step_of_reset (grid0.coords ⟨n + 1, hn⟩) ((cond1_iff ⟨n + 1, hn⟩).mpr h0) _ _ _ _
    · rw [before0_2 m c ⟨n + 1, hn⟩ h0 d]
      rfl

/-! ## The body obligation, at a generic point -/

/-- What the body is called with at point `t`: the invariant, what the core owes, and each window's current buffer
    at what it then holds, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

set_option maxHeartbeats 800000 in
/-- The body at any point: the inputs' buffers hold their tiles; exactly one of the two product branches is taken
    (off the diagonal tiles the plain one, on them the masked one); the body's triple applies to whatever the output
    block's buffer holds, and its result is the recursion's value; the invariant passes through unread and the core
    owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have h23 : k0_cond2 (grid0.coords t) = 1#1 ↔ ¬k0_cond3 (grid0.coords t) = 1#1 := by
    rw [cond2_iff t, cond3_iff t]
  iintro ⟨HΦ, Ho, ⟨%d0, H0⟩, ⟨%d1, H1⟩, ⟨%d2, H2⟩⟩
  iapply (sound_kernel c Set.univ (grid0.coords t) h23 _ _ _ _ _ _ (iblk m c 0 t) (iblk m c 1 t) ((dats m 0 c).before 2 t d2) _)
  isplitl [H0]; · iexact H0
  isplitl [H1]; · iexact H1
  isplitl [H2]; · iexact H2
  rw [step_before m c t d2]
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  simp only [show idle0 2 (grid0.coords t) = false from live_o t]
  exact sound_body m c t

/-! ## The run and the frame -/

set_option backward.isDefEq.respectTransparency.types false in
/-- At the compiled mesh, for any values, from any memory with zero counters: every weakly fair execution of @main on
    the TensorCores terminates, and every final state has every array of the pipeline at what the library computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run leaves both argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.ReferenceIdeal.Acc

end
-- ==== Proof.RefPayload.lean ====
/-
  The reference body's three stored values, read at an entry (p, q) of the 512×512 block, over the extended reals:
  the reset stores 0; off the diagonal tiles the block gains the tile product's entry ∑ c, w(p, c) · x(c, q); on a
  diagonal tile the same with w's own diagonal entry (c = p) replaced by 0.
-/
import proofs.«174706_g2000605606384585_pallaspilot1_262_1_alg».proof.Proof.Gen.ReferenceIdeal.Skeleton
import proofs.«174706_g2000605606384585_pallaspilot1_262_1_alg».proof.Proof.LibMatmulPlainAt
import Idealize.ShloMosaic.Lib.Pipeline.Value
import Idealize.ShloMosaic.Lib.ValueIdx

noncomputable section

open scoped BigOperators

namespace Cert.ReferenceIdeal.HollowValue

open Cert.ReferenceIdeal Cert.ReferenceIdeal.Gen
open Idealize.ShloMosaic Idealize.ShloMosaic.ValueIdx

/-- The product of two tiles into the zero tile, at an entry: the sum over the contracted coordinate. -/
theorem tile_matmul_apply (A B : FVec Ideal S512x512 .f32) (p q : Fin 512) :
    matmul (F := Ideal) dot_S512x512_S512x512_S512x512_1_0_0_1_n_n none A B (constant S512x512 .f32 0x00000000#32) (ix2 p q)
      = ∑ c : Fin 512, A (ix2 p c) * B (ix2 c q) := by
  unfold dot_S512x512_S512x512_S512x512_1_0_0_1_n_n
  exact MatmulPlainAt.matmul_zero_apply _ _ _ _ p q

/-- The reset block is zero everywhere. -/
theorem pay1_at (p q : Fin 512) : k0_pay1 (F := Ideal) (ix2 p q) = 0 := by
  unfold k0_pay1
  show Ideal.ofBits .f32 0x00000000#32 = 0
  exact Ideal.ofBits_zero_f32

/-- Off the diagonal tiles: the block's entry gains the tile product's entry. -/
theorem pay2_at (prev w x : Vec Ideal S512x512 .f32) (p q : Fin 512) :
    k0_pay2 (F := Ideal) prev w x (ix2 p q) = prev (ix2 p q) + ∑ c : Fin 512, w (ix2 p c) * x (ix2 c q) := by
  unfold k0_pay2
  rw [addf_apply, shapeCast_self, tile_matmul_apply]

/-- The two counters at entry (p, c) of a tile are equal words exactly when c = p: both numbers are below 512. -/
theorem counters_eq_iff (p c : Fin 512) :
    IntOp.cmpi .eq (BitVec.ofNat 32 p.val) (BitVec.ofNat 32 c.val) = 1#1 ↔ c.val = p.val := by
  rw [IntOp.cmpi_eq]
  constructor
  · intro h
    have h' := congrArg BitVec.toNat h
    rw [BitVec.toNat_ofNat, BitVec.toNat_ofNat] at h'
    have hp := p.isLt; have hc := c.isLt
    omega
  · intro h; rw [h]

/-- The masked weight tile at an entry. -/
theorem masked_apply (w : Vec Ideal S512x512 .f32) (p c : Fin 512) :
    select (cmpi .eq (iota .tc S512x512 32 [0] iota_S512x512_d0_w32) (iota .tc S512x512 32 [1] iota_S512x512_d1_w32))
        (broadcast S512x512 (Scalar.ofBits (F := Ideal) .f32 0x00000000#32)) w (ix2 p c)
      = if c.val = p.val then 0 else w (ix2 p c) := by
  rw [select_apply]
  show Scalar.select (IntOp.cmpi .eq (iota .tc S512x512 32 [0] iota_S512x512_d0_w32 (ix2 p c))
      (iota .tc S512x512 32 [1] iota_S512x512_d1_w32 (ix2 p c))) (Ideal.ofBits .f32 0x00000000#32) (w (ix2 p c)) = _
  rw [iota_single_apply, iota_single_apply, Ideal.ofBits_zero_f32]
  show (if IntOp.cmpi .eq (BitVec.ofNat 32 p.val) (BitVec.ofNat 32 c.val) = 1 then (0 : Ideal .f32) else w (ix2 p c)) = _
  exact if_congr (counters_eq_iff p c) rfl rfl

/-- On a diagonal tile: the same, the tile's own diagonal entry replaced by zero. -/
theorem pay3_at (w prev x : Vec Ideal S512x512 .f32) (p q : Fin 512) :
    k0_pay3 (F := Ideal) w prev x (ix2 p q)
      = prev (ix2 p q) + ∑ c : Fin 512, (if c.val = p.val then 0 else w (ix2 p c)) * x (ix2 c q) := by
  unfold k0_pay3
  rw [addf_apply, shapeCast_self, tile_matmul_apply]
  refine congrArg (prev (ix2 p q) + ·) (Finset.sum_congr rfl fun c _ => ?_)
  rw [masked_apply]

end Cert.ReferenceIdeal.HollowValue

end
-- ==== Proof.RefBlocks.lean ====
/-
  The reference's input tiles, read at one entry through their windows.

  At grid point t the weight window's block index is (t / 8, t % 8) and the x window's is (t % 8, 0); a block's entry
  sits in its array, on each axis, at the block index times 512 plus the coordinate inside the block. So the weight tile's
  entry (p, k) is W(512 · (t / 8) + p, 512 · (t % 8) + k) and the x tile's entry (k, q) is x(512 · (t % 8) + k, q). The
  row tile is written (t / 8) % 8, the same number for a point below 64, so that the formula is meaningful for every
  natural number.
-/
import proofs.«174706_g2000605606384585_pallaspilot1_262_1_alg».proof.Proof.RefData
import Idealize.ShloMosaic.Lib.Pipeline.Value
import Idealize.ShloMosaic.Lib.ValueIdx

noncomputable section

namespace Cert.ReferenceIdeal.HollowValue

open Cert.ReferenceIdeal Cert.ReferenceIdeal.Gen Cert.ReferenceIdeal.Acc
open Idealize.ShloMosaic Idealize.ShloMosaic.TcCoe Idealize.ShloMosaic.ValueIdx Idealize.SL.Sem

variable (m : (ℓ : Loc nD τ sig) → Buf (Elt Ideal) ℓ)

/-- A point of the 8 × 1 × 8 grid is below 64. -/
theorem point_lt (t : Fin cfg0.N) : t.val < 64 := t.isLt

/-- Row 512 · i + p of tile row i < 8 is a row of the 4096-row arrays. -/
theorem row_lt {i p : Nat} (hi : i < 8) (hp : p < 512) : 512 * i + p < 4096 := by omega

/-- The weight tile at point t, entry (p, k). -/
theorem wblk_apply (c : Dev nD) (t : Fin cfg0.N) (p k : Fin 512) :
    (iblk m c 0 t : Vec Ideal S512x512 .f32) (ix2 p k)
      = m ((c : Thread nD τ).loc main_arg0)
          (ix2 (⟨512 * (t.val / 8 % 8) + p.val, row_lt (Nat.mod_lt _ (by decide)) p.isLt⟩ : Fin 4096)
            (⟨512 * (t.val % 8) + k.val, row_lt (Nat.mod_lt _ (by decide)) k.isLt⟩ : Fin 4096)) := by
  obtain ⟨e0, e1⟩ := idx_w t
  unfold iblk
  rw [View.read_apply]
  show V m c main_arg0 _ = m (c.tc.loc main_arg0) _
  unfold V
  congr 1
  funext a
  apply Fin.ext
  match a with
  | ⟨0, _⟩ => show win0_0.index t (0 : Fin 2) * 512 + 1 * p.val = 512 * (t.val / 8 % 8) + p.val; rw [e0]; have := point_lt t; omega
  | ⟨1, _⟩ => show win0_0.index t (1 : Fin 2) * 512 + 1 * k.val = 512 * (t.val % 8) + k.val; rw [e1]; omega

/-- The x tile at point t, entry (k, q). -/
theorem xblk_apply (c : Dev nD) (t : Fin cfg0.N) (k q : Fin 512) :
    (iblk m c 1 t : Vec Ideal S512x512 .f32) (ix2 k q)
      = m ((c : Thread nD τ).loc main_arg1)
          (ix2 (⟨512 * (t.val % 8) + k.val, row_lt (Nat.mod_lt _ (by decide)) k.isLt⟩ : Fin 4096) q) := by
  obtain ⟨e0, e1⟩ := idx_x t
  unfold iblk
  rw [View.read_apply]
  show V m c main_arg1 _ = m (c.tc.loc main_arg1) _
  unfold V
  congr 1
  funext a
  apply Fin.ext
  match a with
  | ⟨0, _⟩ => show win0_1.index t (0 : Fin 2) * 512 + 1 * k.val = 512 * (t.val % 8) + k.val; rw [e0]; omega
  | ⟨1, _⟩ => show win0_1.index t (1 : Fin 2) * 512 + 1 * q.val = q.val; rw [e1]; omega

end Cert.ReferenceIdeal.HollowValue

end
-- ==== Proof.RefAcc.lean ====
/-
  The reference's output tile after the last point of a reduction run, at one entry.

  Point n of the grid has row tile i = n / 8 and reduction tile s = n % 8. Its work on the output tile at entry (p, q)
  is: start from zero if s = 0, else from what the tile held; add
      ∑_k h(512·i + p, 512·s + k) · x(512·s + k, q),
  where h is the weight matrix with its diagonal replaced by zero. On a diagonal tile (s = i) the body's mask "k = p" is
  exactly "column = row"; off it the column 512·s + k can never equal the row 512·i + p, so h is W there. Hence after the
  eight points of a run the entry is the sum over s < 8 and k < 512, which is the sum over all 4096 columns
  c = 512·s + k: entry (512·i + p, q) of (W − diag(diag W)) · x.
-/
import proofs.«174706_g2000605606384585_pallaspilot1_262_1_alg».proof.Proof.RefPayload
import proofs.«174706_g2000605606384585_pallaspilot1_262_1_alg».proof.Proof.RefBlocks
import proofs.«174706_g2000605606384585_pallaspilot1_262_1_alg».proof.Proof.Hollow
import Mathlib.Algebra.BigOperators.Fin
import Mathlib.Logic.Equiv.Fin.Basic

noncomputable section

open scoped BigOperators

namespace Cert.ReferenceIdeal.HollowValue

open Cert.ReferenceIdeal Cert.ReferenceIdeal.Gen Cert.ReferenceIdeal.Acc
open Idealize.ShloMosaic Idealize.ShloMosaic.TcCoe Idealize.ShloMosaic.ValueIdx Idealize.SL.Sem

variable (m : (ℓ : Loc nD τ sig) → Buf (Elt Ideal) ℓ)

/-! ## One point's addend -/

/-- The addend of grid point n at entry (p, q) of the output tile: the slab of columns 512·(n % 8) … of row
    512·(n / 8 % 8) + p of the hollow product. A total function of n. -/
def addend (c : Dev nD) (n : ℕ) (p q : Fin 512) : Ideal .f32 :=
  ∑ k : Fin 512,
    Cert.Hollow.hol (m ((c : Thread nD τ).loc main_arg0))
        (⟨512 * (n / 8 % 8) + p.val, row_lt (Nat.mod_lt _ (by decide)) p.isLt⟩ : Fin 4096)
        (⟨512 * (n % 8) + k.val, row_lt (Nat.mod_lt _ (by decide)) k.isLt⟩ : Fin 4096)
      * m ((c : Thread nD τ).loc main_arg1)
          (ix2 (⟨512 * (n % 8) + k.val, row_lt (Nat.mod_lt _ (by decide)) k.isLt⟩ : Fin 4096) q)

/-- One point's work at an entry: zero or the previous entry, plus the point's addend. -/
theorem step_apply (c : Dev nD) (t : Fin cfg0.N) (prev : Vec Ideal S512x512 .f32) (p q : Fin 512) :
    step (grid0.coords t) prev (iblk m c 0 t) (iblk m c 1 t) (ix2 p q)
      = (if t.val % 8 = 0 then 0 else prev (ix2 p q)) + addend m c t.val p q := by
  have ht := point_lt t
  have hres : (if k0_cond1 (grid0.coords t) = 1#1 then (k0_pay1 (F := Ideal)) else prev) (ix2 p q)
      = (if t.val % 8 = 0 then 0 else prev (ix2 p q)) := by
    by_cases h1 : t.val % 8 = 0
    · rw [if_pos ((cond1_iff t).mpr h1), if_pos h1, pay1_at]
    · rw [if_neg (fun h => h1 ((cond1_iff t).mp h)), if_neg h1]
  unfold step addend
  by_cases h3 : t.val / 8 = t.val % 8
  · rw [if_pos ((cond3_iff t).mpr h3), pay3_at, hres]
    congr 1
    refine Finset.sum_congr rfl fun k _ => ?_
    rw [wblk_apply, xblk_apply]
    congr 1
    unfold Cert.Hollow.hol
    refine if_congr ?_ rfl rfl
    show k.val = p.val ↔ 512 * (t.val % 8) + k.val = 512 * (t.val / 8 % 8) + p.val
    omega
  · rw [if_neg (fun h => h3 ((cond3_iff t).mp h)), pay2_at, hres]
    congr 1
    refine Finset.sum_congr rfl fun k _ => ?_
    rw [wblk_apply, xblk_apply]
    congr 1
    unfold Cert.Hollow.hol
    refine (if_neg ?_).symm
    show ¬ 512 * (t.val % 8) + k.val = 512 * (t.val / 8 % 8) + p.val
    have hk := k.isLt; have hp := p.isLt
    omega

/-! ## The run's fold -/

/-- The tile after a run's first point: the point's work on the zero tile. -/
def resetAt (c : Dev nD) : (n : ℕ) → n < cfg0.N → Vec Ideal S512x512 .f32 :=
  fun n h => step (grid0.coords ⟨n, h⟩) (k0_pay1 (F := Ideal)) (iblk m c 0 ⟨n, h⟩) (iblk m c 1 ⟨n, h⟩)

/-- A later point's work on what the point before left. -/
def stepAt (c : Dev nD) : (n : ℕ) → n < cfg0.N → Vec Ideal S512x512 .f32 → Vec Ideal S512x512 .f32 :=
  fun n h acc => step (grid0.coords ⟨n, h⟩) acc (iblk m c 0 ⟨n, h⟩) (iblk m c 1 ⟨n, h⟩)

/-- Where the reset is taken the point's work does not depend on what the tile held. -/
theorem step_reset (i : grid0.Coords) (h1 : k0_cond1 i = 1#1) (prev prev' w x : Vec Ideal S512x512 .f32) :
    step i prev w x = step i prev' w x := by
  unfold step; simp only [if_pos h1]

theorem outsAt_reset (c : Dev nD) : ∀ (n : ℕ) (h : n < cfg0.N), n % 8 = 0 → outsAt m c n h = resetAt m c n h
  | 0, h, _ => rfl
  | n + 1, h, h0 => by
    rw [outsAt_succ]
    exact step_reset _ ((cond1_iff ⟨n + 1, h⟩).mpr h0) _ _ _ _

theorem outsAt_step (c : Dev nD) (n : ℕ) (h : n + 1 < cfg0.N) (_ : ¬(n + 1) % 8 = 0) :
    outsAt m c (n + 1) h = stepAt m c (n + 1) h (outsAt m c n (Nat.lt_of_succ_lt h)) := rfl

/-- After the last point of a run the entry is the sum of the run's eight addends. -/
theorem outsAt_last (c : Dev nD) (t : Fin cfg0.N) (ht : t.val % 8 = 7) (p q : Fin 512) :
    outsAt m c t.val t.isLt (ix2 p q) = ∑ s ∈ Finset.range 8, addend m c (8 * (t.val / 8) + s) p q := by
  have hlt := point_lt t
  have h' : 8 * (t.val / 8) + t.val % 8 < cfg0.N := by rw [Nat.div_add_mod]; exact t.isLt
  rw [Pipeline.eq_accAt_of_mod (outsAt m c) 8 (resetAt m c) (stepAt m c) (outsAt_reset m c) (outsAt_step m c)
    (by decide) t.val t.isLt h']
  refine (Pipeline.accAt_add_apply (resetAt m c) (stepAt m c) (fun _ => 0)
    (fun n j => addend m c n (j 0) (j 1)) (8 * (t.val / 8)) 7 ?_ ?_ (t.val % 8) (by omega) h' (ix2 p q)).trans ?_
  · intro h i
    obtain ⟨p, q, rfl⟩ : ∃ (p q : Fin 512), i = ix2 p q := ⟨i 0, i 1, eq_ix2 i⟩
    show step (grid0.coords ⟨8 * (t.val / 8), h⟩) (k0_pay1 (F := Ideal)) (iblk m c 0 ⟨8 * (t.val / 8), h⟩) (iblk m c 1 ⟨8 * (t.val / 8), h⟩) (ix2 p q)
      = 0 + addend m c (8 * (t.val / 8)) p q
    rw [step_apply m c ⟨8 * (t.val / 8), h⟩, pay1_at, ite_self]
  · intro n h acc i hb he
    obtain ⟨p, q, rfl⟩ : ∃ (p q : Fin 512), i = ix2 p q := ⟨i 0, i 1, eq_ix2 i⟩
    show step (grid0.coords ⟨n, h⟩) acc (iblk m c 0 ⟨n, h⟩) (iblk m c 1 ⟨n, h⟩) (ix2 p q) = acc (ix2 p q) + addend m c n p q
    rw [step_apply m c ⟨n, h⟩, if_neg (by show ¬ n % 8 = 0; omega)]
  · show (0 : Ideal .f32) + ∑ s ∈ Finset.range (t.val % 8 + 1), addend m c (8 * (t.val / 8) + s) p q = _
    rw [ht, zero_add]

/-! ## The 4096 columns, tile by tile -/

/-- A sum over the 4096 columns is the sum over the eight column tiles of the sums over a tile's 512 columns. -/
theorem sum_tiles {M : Type*} [AddCommMonoid M] (f : Fin 4096 → M) :
    ∑ c : Fin 4096, f c = ∑ s : Fin 8, ∑ k : Fin 512, f ⟨512 * s.val + k.val, row_lt s.isLt k.isLt⟩ := by
  have e : Fin 8 × Fin 512 ≃ Fin 4096 := finProdFinEquiv
  rw [← Equiv.sum_comp (finProdFinEquiv : Fin 8 × Fin 512 ≃ Fin 4096) f, Fintype.sum_prod_type]
  refine Finset.sum_congr rfl fun s _ => Finset.sum_congr rfl fun k _ => congrArg f (Fin.ext ?_)
  show k.val + 512 * s.val = 512 * s.val + k.val
  omega

/-- The addend of the point with row tile i and reduction tile s, over the tile's own columns. -/
theorem addend_tile (c : Dev nD) (i s : ℕ) (hi : i < 8) (hs : s < 8) (p q : Fin 512) :
    addend m c (8 * i + s) p q
      = ∑ k : Fin 512,
          Cert.Hollow.hol (m ((c : Thread nD τ).loc main_arg0)) (⟨512 * i + p.val, row_lt hi p.isLt⟩ : Fin 4096)
              (⟨512 * s + k.val, row_lt hs k.isLt⟩ : Fin 4096)
            * m ((c : Thread nD τ).loc main_arg1) (ix2 (⟨512 * s + k.val, row_lt hs k.isLt⟩ : Fin 4096) q) := by
  have e1 : (8 * i + s) / 8 % 8 = i := by omega
  have e2 : (8 * i + s) % 8 = s := by omega
  unfold addend
  simp only [e1, e2]

/-- After the last point of the run of row tile t / 8, entry (p, q) of the output tile is entry (512·(t / 8) + p, q) of
    the hollow product. -/
theorem outs_final (c : Dev nD) (t : Fin cfg0.N) (ht : t.val % 8 = 7) (p q : Fin 512) :
    outsAt m c t.val t.isLt (ix2 p q)
      = Cert.Hollow.prod (m ((c : Thread nD τ).loc main_arg0)) (m ((c : Thread nD τ).loc main_arg1))
          (ix2 (⟨512 * (t.val / 8) + p.val, row_lt (by have := point_lt t; omega) p.isLt⟩ : Fin 4096) q) := by
  have hi : t.val / 8 < 8 := by have := point_lt t; omega
  rw [outsAt_last m c t ht, Finset.sum_range]
  show _ = ∑ cc : Fin 4096, Cert.Hollow.hol (m ((c : Thread nD τ).loc main_arg0))
      (⟨512 * (t.val / 8) + p.val, row_lt hi p.isLt⟩ : Fin 4096) cc * m ((c : Thread nD τ).loc main_arg1) (ix2 cc q)
  rw [sum_tiles]
  refine Finset.sum_congr rfl fun s _ => ?_
  exact addend_tile m c (t.val / 8) s.val hi s.isLt p q

end Cert.ReferenceIdeal.HollowValue

end
-- ==== Proof.RefValue.lean ====
/-
  The reference's value: after its run the result array holds (W − diag(diag W)) · x of the two argument arrays.

  The output window writes its 512×512 block back at the last point of each reduction run (t % 8 = 7); there the block
  is rows 512·(t / 8) … of the hollow product, read through the window (block index (t / 8, 0)). The eight blocks so
  written tile the 4096×512 array — row r lies in the block written at point 8·(r / 512) + 7 — so the array ends holding
  the product everywhere.
-/
import proofs.«174706_g2000605606384585_pallaspilot1_262_1_alg».proof.Proof.RefAcc

noncomputable section

open scoped BigOperators

namespace Cert.ReferenceIdeal.HollowValue

open Cert.ReferenceIdeal Cert.ReferenceIdeal.Gen Cert.ReferenceIdeal.Acc
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- What a flushing point writes back is its block of the hollow product. -/
theorem flushed_eq (c : Dev nD) (t : Fin cfg0.N) (hf : (cfg0.win 2).flush t = true) :
    (dats m 0 c).flushed 2 t
      = ((cfg0.win 2).blk t).view.read (Elt Ideal)
          (Cert.Hollow.prod (m ((c : Thread nD τ).loc main_arg0)) (m ((c : Thread nD τ).loc main_arg1))) := by
  have ht : t.val % 8 = 7 := (flush0_2 t).mp hf
  obtain ⟨e0, e1⟩ := idx_o t
  show (cfg0.win 2).cut (grid0.coords t) ((dats m 0 c).after 2 t) = _
  rw [after0_2]
  funext j
  have hj0 : (j 0).val < 512 := (j 0).isLt
  have hj1 : (j 1).val < 512 := (j 1).isLt
  have hx : (cfg0.win 2).xinj (grid0.coords t) j = ix2 (⟨(j 0).val, hj0⟩ : Fin 512) (⟨(j 1).val, hj1⟩ : Fin 512) := by
    funext a
    match a with
    | ⟨0, _⟩ => rfl
    | ⟨1, _⟩ => rfl
  show outsAt m c t.val t.isLt ((cfg0.win 2).xinj (grid0.coords t) j)
    = Cert.Hollow.prod (m ((c : Thread nD τ).loc main_arg0)) (m ((c : Thread nD τ).loc main_arg1)) (((cfg0.win 2).blk t).view.emb j)
  rw [hx, outs_final m c t ht]
  congr 1
  funext a
  apply Fin.ext
  match a with
  | ⟨0, _⟩ => show 512 * (t.val / 8) + (j 0).val = win0_2.index t (0 : Fin 2) * 512 + 1 * (j 0).val; rw [e0]; omega
  | ⟨1, _⟩ => show (j 1).val = win0_2.index t (1 : Fin 2) * 512 + 1 * (j 1).val; rw [e1]; omega

/-- Every entry of the result array is in the block some flushing point writes: row r in that of point 8·(r / 512) + 7. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have hi0 : (i 0).val < 4096 := (i 0).isLt
  have hi1 : (i 1).val < 512 := (i 1).isLt
  have hN : 8 * ((i 0).val / 512) + 7 < cfg0.N := by show _ < 64; omega
  refine ⟨⟨8 * ((i 0).val / 512) + 7, hN⟩, (flush0_2 _).mpr (by show (8 * ((i 0).val / 512) + 7) % 8 = 7; omega), ?_⟩
  obtain ⟨e0, e1⟩ := idx_o ⟨8 * ((i 0).val / 512) + 7, hN⟩
  show i ∈ ((View.whole main_v0).slice (win0_2.rect ⟨8 * ((i 0).val / 512) + 7, hN⟩)).set
  rw [View.set_slice_whole, Rect.mem_set_unit]
  intro a
  match a with
  | ⟨0, _⟩ =>
    show win0_2.index ⟨8 * ((i 0).val / 512) + 7, hN⟩ (0 : Fin 2) * 512 ≤ (i 0).val
      ∧ (i 0).val < win0_2.index ⟨8 * ((i 0).val / 512) + 7, hN⟩ (0 : Fin 2) * 512 + 512
    rw [e0]
    show (8 * ((i 0).val / 512) + 7) / 8 * 512 ≤ (i 0).val ∧ (i 0).val < (8 * ((i 0).val / 512) + 7) / 8 * 512 + 512
    omega
  | ⟨1, _⟩ =>
    show win0_2.index ⟨8 * ((i 0).val / 512) + 7, hN⟩ (1 : Fin 2) * 512 ≤ (i 1).val
      ∧ (i 1).val < win0_2.index ⟨8 * ((i 0).val / 512) + 7, hN⟩ (1 : Fin 2) * 512 + 512
    rw [e1]
    omega

/-- The result array after the run is the hollow product of the argument arrays. -/
theorem final_o (c : Dev nD) : (dats m 0 c).arrAt 2 cfg0.N = Cert.Hollow.prod (m ((c : Thread nD τ).loc main_arg0)) (m ((c : Thread nD τ).loc main_arg1)) :=
  (dats m 0 c).arrAt_eq_of_cover 2
    (Cert.Hollow.prod (m ((c : Thread nD τ).loc main_arg0)) (m ((c : Thread nD τ).loc main_arg1)))
    (flushed_eq m c) (cover c)

/-- The frame run, read: the result array at the hollow product, the arguments unchanged. -/
theorem run_of (h : θ_run (defs (F := Ideal)) (onTc (τ := τ) (main (F := Ideal))) (s₀ m ρ) (Pipeline.FramePost cfgs (dats m) 0 (V m))) :
    θ_run (defs (F := Ideal)) (onTc (τ := τ) (main (F := Ideal))) ⟨m, fun _ => 0, ρ⟩ fun r => ∀ c : Dev nD,
      r.2.mem ((c : Thread nD τ).loc main_v0) = Cert.Hollow.prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run (defs (F := Ideal)) _ _).mono (fun _ h c =>
    ⟨((h c).1 2).trans (final_o m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) h

end Cert.ReferenceIdeal.HollowValue

end
-- ==== Proof.lean ====
/-
  Both programs compute the product of the hollowed weight matrix with x: `(W − diag(diag W)) · x`, beside the weight
  matrix itself, returned unchanged.

  The kernel walks the eight 512-row stripes of W; at stripe t it zeroes the entries whose column is 512·t + row (the
  stripe's part of the diagonal) and multiplies the masked stripe by the whole of x in one matrix product, so entry
  (r, q) of its result is the sum over all 4096 columns c of h(r, c) · x(c, q), with h the hollowed matrix
  (`Cert.Hollow.prod`). The reference tiles the same product 8 × 8 in 512 × 512 tiles: for each row tile it starts
  from the zero block and adds, tile after tile along the reduction axis, the product of W's tile — its own diagonal
  zeroed exactly on the diagonal tiles — with the matching row tile of x; after the eighth tile the block holds
  0 + the sum over the eight tiles of the 512-term partial sums, which is the same 4096-term sum regrouped. Over the
  extended reals addition is commutative and associative, so the regrouping needs no finiteness, and the masked entries
  contribute the same products 0 · x(c, q) on both sides: the precondition is never opened.

  The frames: each kernel's run terminates without a fault and leaves the two argument arrays as launched (they are
  only ever fetched). The idealization rewrote nothing, so `preserves` is trivial.
-/
import proofs.«174706_g2000605606384585_pallaspilot1_262_1_alg».proof.Defs
import proofs.«174706_g2000605606384585_pallaspilot1_262_1_alg».proof.Proof.Gen.Kernel
import proofs.«174706_g2000605606384585_pallaspilot1_262_1_alg».proof.Proof.Gen.KernelIdeal
import proofs.«174706_g2000605606384585_pallaspilot1_262_1_alg».proof.Proof.Gen.ReferenceIdeal
import proofs.«174706_g2000605606384585_pallaspilot1_262_1_alg».proof.Proof.Gen.Pre_finite_inputs
import proofs.«174706_g2000605606384585_pallaspilot1_262_1_alg».proof.Proof.KernelFrameP
import proofs.«174706_g2000605606384585_pallaspilot1_262_1_alg».proof.Proof.KernelIdealFrameP
import proofs.«174706_g2000605606384585_pallaspilot1_262_1_alg».proof.Proof.KernelIdealValueP
import proofs.«174706_g2000605606384585_pallaspilot1_262_1_alg».proof.Proof.Hollow
import proofs.«174706_g2000605606384585_pallaspilot1_262_1_alg».proof.Proof.KernelValue
import proofs.«174706_g2000605606384585_pallaspilot1_262_1_alg».proof.Proof.RefBody
import proofs.«174706_g2000605606384585_pallaspilot1_262_1_alg».proof.Proof.RefValue
import Idealize.ShloMosaic.Adequacy
import Idealize.ShloMosaic.Init

noncomputable section

open Idealize.ShloMosaic Idealize.ShloMosaic.TcCoe Idealize.SL.Sem

namespace Cert.Proof.Claims

/-- The kernel as printed runs and keeps its arguments. -/
theorem frame_k : Cert.frame_Kernel := fun m ρ _ => Cert.Kernel.GenP.frame m ρ
/-- So does its idealization. -/
theorem frame_ki : Cert.frame_KernelIdeal := fun m ρ _ => Cert.KernelIdeal.GenP.frame m ρ
/-- And the tiled reference. -/
theorem frame_ri : Cert.frame_ReferenceIdeal := fun m ρ _ => Cert.ReferenceIdeal.Acc.frame m ρ

/-- The ideal pass rewrote no operation. -/
theorem preserves : Cert.preserves_Kernel_KernelIdeal := trivial

/-- From memories that agree on W and x, both runs end with the first result at W and the second at
    `(W − diag(diag W)) · x` of the kernel's arguments: the kernel's result array by its value leg, the reference's by
    its own, rewritten along the agreement of the arguments. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => Cert.Hollow.prod (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => ⟨(h c).2.1, (h c).1, (h c).2.1, (h c).2.2⟩)
      (Cert.KernelIdeal.HollowValue.run m ρ)
  · refine (θ_run Cert.ReferenceIdeal.defs _ _).mono (fun _ h c => ⟨(h c).2.1.trans (hagree c).1, ?_, (h c).2.1, (h c).2.2⟩)
      (Cert.ReferenceIdeal.HollowValue.run_of m' ρ' (Cert.ReferenceIdeal.Acc.run_main m' ρ'))
    rw [(h c).1, (hagree c).1, (hagree c).2]

end Cert.Proof.Claims

theorem Cert.Proof.claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end
